-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1024x4096 : Shape := ⟨2, ![1024, 4096]⟩
abbrev S1x4096 : Shape := ⟨2, ![1, 4096]⟩
abbrev S1x1024 : Shape := ⟨2, ![1, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x4096, .f32⟩
  | .local _ .vmem, ⟨5, _⟩ => ⟨S1024x4096, .f32⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  packedbf16_S1024x4096_S1024x4096_0_0 : (Rect.unit (s := S1024x4096) ![0, 0] S1024x4096.size inb_S1024x4096_S1024x4096_0_0).PackedRows (EltTy.packing .bf16)
  shapeCasts_S4096_S1x4096 : S4096.ShapeCasts S1x4096
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S8192x4096.size a
  hwx1_1 : ∀ i : grid1.Coords, EltTy.bits .bf16 = 32 ∨ (Rect.block (s := S8192x4096) S1024x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, on the extended reals.

  A linear layer whose weight is binarized: with `sgn v = 1` for `0 ≤ v` and `-1` below zero (so `sgn 0 = 1`),
      out[n, o] = (∑ k, x[n, k] · sgn (w[o, k])) + b[o]          (n < 8192, o < 4096, k < 4096).
  The kernel binarizes the weight as it stands; the reference first clamps it to [-1, 1]. The clamp never moves a
  value across zero — `0 ≤ min 1 (max (-1) v) ↔ 0 ≤ v`, because `0 ≤ 1` and `¬ 0 ≤ -1` — so `sgn` of the clamped
  weight is `sgn` of the weight, for every extended real, the infinities included. That is the one law joining the
  two sides: the two sums then agree term by term, and no rearrangement, distributivity or cancellation is used.
-/
import Idealize.ShloMosaic.PureOps.Ideal
import Idealize.ShloMosaic.PureOps.Ideal.Laws
import Idealize.ShloMosaic.Lib.ValueIdx

noncomputable section

namespace Cert.BinLinear

open Idealize.ShloMosaic Idealize.ShloMosaic.ValueIdx
open scoped BigOperators

/-- The pattern of `1.0` denotes `1`. -/
theorem ofBits_one : Ideal.ofBits .f32 0x3F800000#32 = 1 := by
  simp [Ideal.ofBits, Ideal.ieee, -EReal.coe_mul]; norm_num

/-- The pattern of `-1.0` denotes `-1`. -/
theorem ofBits_neg_one : Ideal.ofBits .f32 0xBF800000#32 = -1 := by
  simp [Ideal.ofBits, Ideal.ieee, -EReal.coe_mul]; norm_num

/-- The binarizing sign: `1` on `[0, +∞]`, `-1` on `[-∞, 0)`. -/
def sgn (v : EReal) : EReal := if 0 ≤ v then 1 else -1

/-- "Select `1.0` where `v ≥ 0.0`, else `-1.0`", as both programs spell it, is `sgn v`. -/
theorem select_ge_zero (v : EReal) :
    Scalar.select (Ideal.cmp .oge v (Ideal.ofBits .f32 0x00000000#32))
      (Ideal.ofBits .f32 0x3F800000#32) (Ideal.ofBits .f32 0xBF800000#32) = sgn v := by
  rw [Ideal.ofBits_zero_f32, ofBits_one, ofBits_neg_one]
  unfold Scalar.select Ideal.cmp sgn
  by_cases h : 0 ≤ v <;> simp [h]

theorem neg_one_lt_zero : (-1 : EReal) < 0 := by
  have h : ((-1 : ℝ) : EReal) < ((0 : ℝ) : EReal) := EReal.coe_lt_coe_iff.mpr (by norm_num)
  rwa [EReal.coe_neg, EReal.coe_one, EReal.coe_zero] at h

/-- Clamping to `[-1, 1]` does not move a value across zero. -/
theorem zero_le_clamp_iff (v : EReal) : 0 ≤ min 1 (max (-1) v) ↔ 0 ≤ v := by
  rw [le_min_iff, le_max_iff]
  constructor
  · rintro ⟨-, h | h⟩
    · exact absurd h (not_le.mpr neg_one_lt_zero)
    · exact h
  · intro h; exact ⟨zero_le_one, Or.inr h⟩

/-- So the sign of the clamped value is the sign of the value. -/
theorem sgn_clamp (v : EReal) : sgn (min 1 (max (-1) v)) = sgn v := by
  simp only [sgn, zero_le_clamp_iff]

/-- Row `n` of `x` against the binarized row `o` of `w`, plus `b[o]`. -/
def entry (x : (⟨2, ![8192, 4096]⟩ : Shape).Idx → EReal) (w : (⟨2, ![4096, 4096]⟩ : Shape).Idx → EReal)
    (b : (⟨1, ![4096]⟩ : Shape).Idx → EReal) (n : Fin 8192) (o : Fin 4096) : EReal :=
  (∑ k : Fin 4096, x (ix2 n k) * sgn (w (ix2 o k))) + b (ix1 o)

/-- The whole result array, index by index. -/
def G (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b ⟨(i 0).val, (i 0).isLt⟩ ⟨(i 1).val, (i 1).isLt⟩

end Cert.BinLinear

end
-- ==== Proof.RegionBinarize.lean ====
/-
  The first kernel region: the weight binarized, block of 512 rows by block.

  Grid point `t` (of 8) fetches rows `512·t … 512·t + 511` of the weight (all 4096 columns), replaces every entry
  `v` by `1.0` where `v ≥ 0.0` and by `-1.0` elsewhere — `sgn v` on the extended reals; the change of float format
  after it is the identity — and writes the block back to the same rows of the result. The eight blocks tile the
  4096 rows, so after the region the result array holds `sgn` of the weight, entry by entry: `binarized_array`.
-/
import proofs.«117121_j44057774522911_1_alg».proof.Proof.Gen.KernelIdeal.Frame
import Idealize.ShloMosaic.Lib.Pipeline.Value
import Idealize.ShloMosaic.Lib.ValueIdx
import Idealize.ShloMosaic.PureOps.Ideal.Laws
import proofs.«117121_j44057774522911_1_alg».proof.Proof.Spec
set_option maxRecDepth 16384

noncomputable section

namespace Cert.KernelIdeal.RegionBinarize

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- What the region leaves in the result array: the sign of each weight entry, zero counted as positive. -/
abbrev binarizedOf (c : Dev nD) : S4096x4096.Idx → Elt Ideal .bf16 := fun i => Cert.BinLinear.sgn (V c main_arg1 i)

/-- The body's stored value at an entry: the select on "≥ 0.0" of the loaded entry, which is its sign. -/
theorem stored_entry (v0 : Vec Ideal S512x4096 .f32) (j : S512x4096.Idx) :
    k0_pay1 (F := Ideal) v0 j = Cert.BinLinear.sgn (v0 j) :=
  Cert.BinLinear.select_ge_zero (v0 j)

/-- Both windows walk the row blocks together: at point `t` each sits at block row `t`, block column 0. -/
theorem block_indices : ∀ t : Fin cfg0.N, win0_0.index t (0 : Fin 2) = win0_1.index t (0 : Fin 2)
    ∧ win0_0.index t (1 : Fin 2) = win0_1.index t (1 : Fin 2)
    ∧ win0_1.index t (0 : Fin 2) ≤ 7 ∧ win0_1.index t (1 : Fin 2) = 0 :=
  (by decide +kernel : ∀ t : Fin grid0.N, _)

/-- Every block row is some point's. -/
theorem block_onto : ∀ q : Fin 8, ∃ t : Fin cfg0.N, win0_1.index t = ![q.val, 0] :=
  (by decide +kernel : ∀ q : Fin 8, ∃ t : Fin grid0.N, win0_1.index t = ![q.val, 0])

/-- What point `t` writes back is block `t` of the binarized weight. -/
theorem flushed_binarized (c : Dev nD) (t : Fin cfg0.N) :
    (dat0 V c).flushed 1 t = ((cfg0.win 1).blk t).view.read (Elt Ideal) (binarizedOf V c) := by
  show (cfg0.win 1).cut (grid0.coords t) ((dat0 V c).after 1 t) = _
  rw [after0_1]
  unfold out0_1
  rw [View.canon_unit_zero offsets_zero]
  simp only [View.ld_unit_zero (S := S512x4096) offsets_zero]
  obtain ⟨e0, e1, -, -⟩ := block_indices t
  funext j
  refine (stored_entry (iblk0 V c 0 t) j).trans ?_
  show Cert.BinLinear.sgn (V c main_arg1 (((cfg0.win 0).blk t).view.emb j)) = Cert.BinLinear.sgn (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the result array lies in point `t`'s block iff each coordinate lies in the block's range. -/
theorem mem_block (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- The eight row blocks tile the array: row `r` is in the block of point `r / 512`. -/
theorem blocks_cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := block_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the region the result array is the binarized weight, whatever contents the region was entered with. -/
theorem binarized_array (c : Dev nD) : (dat0 V c).arrAt 1 cfg0.N = binarizedOf V c :=
  (dat0 V c).arrAt_eq_of_cover 1 (binarizedOf V c) (fun t _ => flushed_binarized V c t) (blocks_cover)

end Cert.KernelIdeal.RegionBinarize

end
-- ==== Proof.RegionCast.lean ====
/-
  The second kernel region: the activations re-formatted, block of 1024 rows by block.

  Grid point `t` (of 8) fetches rows `1024·t … 1024·t + 1023` of `x` (all 4096 columns), changes the float format
  of every entry — the identity on the extended reals — and writes the block back to the same rows of the result.
  The eight blocks tile the 8192 rows, so after the region the result array holds `x` itself, whatever the
  region found in it: `cast_array`.
-/
import proofs.«117121_j44057774522911_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionCast

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- What the region leaves in the result array: the activations, entry by entry. -/
abbrev castOf (c : Dev nD) : S8192x4096.Idx → Elt Ideal .bf16 := fun i => V c main_arg0 i

/-- Both windows walk the row blocks together: at point `t` each sits at block row `t`, block column 0. -/
theorem block_indices : ∀ t : Fin cfg1.N, win1_0.index t (0 : Fin 2) = win1_1.index t (0 : Fin 2)
    ∧ win1_0.index t (1 : Fin 2) = win1_1.index t (1 : Fin 2)
    ∧ win1_1.index t (0 : Fin 2) ≤ 7 ∧ win1_1.index t (1 : Fin 2) = 0 :=
  (by decide +kernel : ∀ t : Fin grid1.N, _)

/-- Every block row is some point's. -/
theorem block_onto : ∀ q : Fin 8, ∃ t : Fin cfg1.N, win1_1.index t = ![q.val, 0] :=
  (by decide +kernel : ∀ q : Fin 8, ∃ t : Fin grid1.N, win1_1.index t = ![q.val, 0])

/-- What point `t` writes back is block `t` of the activations. -/
theorem flushed_cast (c : Dev nD) (t : Fin cfg1.N) :
    (dat1 V c).flushed 1 t = ((cfg1.win 1).blk t).view.read (Elt Ideal) (castOf V c) := by
  show (cfg1.win 1).cut (grid1.coords t) ((dat1 V c).after 1 t) = _
  rw [after1_1]
  unfold out1_1
  rw [View.canon_unit_zero offsets_zero]
  simp only [View.ld_unit_zero (S := S1024x4096) offsets_zero]
  obtain ⟨e0, e1, -, -⟩ := block_indices t
  funext j
  show V c main_arg0 (((cfg1.win 0).blk t).view.emb j) = V c main_arg0 (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 1024 + 1 * (j 0).val = win1_1.index t (0 : Fin 2) * 1024 + 1 * (j 0).val; omega
    | ⟨1, _⟩ => show win1_0.index t (1 : Fin 2) * 4096 + 1 * (j 1).val = win1_1.index t (1 : Fin 2) * 4096 + 1 * (j 1).val; omega
  rw [h0]

/-- An index of the result array lies in point `t`'s block iff each coordinate lies in the block's range. -/
theorem mem_block (t : Fin cfg1.N) (i : S8192x4096.Idx) :
    i ∈ ((cfg1.win 1).blk t).view.set ↔ ∀ a : Fin 2, win1_1.index t a * S1024x4096.size a ≤ (i a).val ∧ (i a).val < win1_1.index t a * S1024x4096.size a + S1024x4096.size a := by
  show i ∈ ((View.whole main_v1).slice (win1_1.rect t)).set ↔ _
  rw [View.set_slice_whole, Rect.mem_set_unit]
  exact Iff.rfl

/-- The eight row blocks tile the array: row `r` is in the block of point `r / 1024`. -/
theorem blocks_cover (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  obtain ⟨t, ht⟩ := block_onto ⟨(i 0).val / 1024, by omega⟩
  have q0 : win1_1.index t (0 : Fin 2) = (i 0).val / 1024 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 4096 ≤ (i 1).val ∧ (i 1).val < win1_1.index t (1 : Fin 2) * 4096 + 4096; omega

/-- After the region the result array is the activations, whatever contents the region was entered with. -/
theorem cast_array (c : Dev nD) : (dat1 V c).arrAt 1 cfg1.N = castOf V c :=
  (dat1 V c).arrAt_eq_of_cover 1 (castOf V c) (fun t _ => flushed_cast V c t) (blocks_cover)

end Cert.KernelIdeal.RegionCast

end
-- ==== Proof.RegionMatmul.lean ====
/-
  The third kernel region: the product, tile of 1024 × 1024 by tile.

  The grid is 4 × 8: point `(J, I)` fetches rows `1024·I …` of the activations `a` (all 4096 columns), rows `1024·J …`
  of the binarized weight `s` (all 4096 columns) and columns `1024·J …` of the bias row `β`, contracts the two blocks
  over their 4096 columns into a zero accumulator, adds the bias row to every row of the tile, and writes the tile
  back to rows `1024·I …`, columns `1024·J …` of the result. Entry `(p, q)` of the tile is
      (∑ k, a[1024·I + p, k] · s[1024·J + q, k]) + β[0, 1024·J + q],
  which is entry `(1024·I + p, 1024·J + q)` of ONE function of the three arrays: `productOf`. The 32 tiles cover the
  8192 × 4096 result, so after the region the result array is that function: `product_array`. The contraction is
  the whole inner dimension at once: no partial sums are carried from point to point.
-/
import proofs.«117121_j44057774522911_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionMatmul

open Cert.KernelIdeal Cert.KernelIdeal.Gen Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

theorem offsets_zero : (![0, 0] : Fin 2 → Nat) = fun _ => 0 := funext fun a => by fin_cases a <;> rfl

/-! ## The tile's entries -/

/-- Row `j 0` of a 1024 × 4096 block, column `k`. -/
abbrev lrow (j : S1024x1024.Idx) (k : Fin 4096) : S1024x4096.Idx := fun a => match a with
  | ⟨0, _⟩ => ⟨(j 0).val, (j 0).isLt⟩
  | ⟨1, _⟩ => ⟨k.val, k.isLt⟩
/-- Row `j 1` of a 1024 × 4096 block, column `k`. -/
abbrev rrow (j : S1024x1024.Idx) (k : Fin 4096) : S1024x4096.Idx := fun a => match a with
  | ⟨0, _⟩ => ⟨(j 1).val, (j 1).isLt⟩
  | ⟨1, _⟩ => ⟨k.val, k.isLt⟩
/-- Column `j 1` of the 1 × 1024 bias block. -/
abbrev bcol (j : S1024x1024.Idx) : S1x1024.Idx := fun a => match a with
  | ⟨0, _⟩ => ⟨0, Nat.one_pos⟩
  | ⟨1, _⟩ => ⟨(j 1).val, (j 1).isLt⟩

theorem lhs_axis0 (i : S1024x1024.Idx) (q : dot_S1024x4096_S1024x4096_S1024x1024_1_1_0_0_n_n.contr.Idx) :
    (dot_S1024x4096_S1024x4096_S1024x1024_1_1_0_0_n_n.lhsIdx i q 0).val = (i 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl
theorem lhs_axis1 (i : S1024x1024.Idx) (q : dot_S1024x4096_S1024x4096_S1024x1024_1_1_0_0_n_n.contr.Idx) :
    (dot_S1024x4096_S1024x4096_S1024x1024_1_1_0_0_n_n.lhsIdx i q 1).val = (q ⟨0, by decide⟩).val :=
  dot_S1024x4096_S1024x4096_S1024x1024_1_1_0_0_n_n.lhsIdx_val_of_single rfl i q
theorem rhs_axis0 (i : S1024x1024.Idx) (q : dot_S1024x4096_S1024x4096_S1024x1024_1_1_0_0_n_n.contr.Idx) :
    (dot_S1024x4096_S1024x4096_S1024x1024_1_1_0_0_n_n.rhsIdx i q 0).val = (i 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl
theorem rhs_axis1 (i : S1024x1024.Idx) (q : dot_S1024x4096_S1024x4096_S1024x1024_1_1_0_0_n_n.contr.Idx) :
    (dot_S1024x4096_S1024x4096_S1024x1024_1_1_0_0_n_n.rhsIdx i q 1).val = (q ⟨0, by decide⟩).val :=
  dot_S1024x4096_S1024x4096_S1024x1024_1_1_0_0_n_n.rhsIdx_val_of_single rfl i q

/-- The matrix unit's product into a zero accumulator, at a tile entry: row of the left block against row of the
    right block, summed over the 4096 shared columns. -/
theorem product_entry (x0 x1 : FVec Ideal S1024x4096 .bf16) (j : S1024x1024.Idx) :
    matmul (F := Ideal) dot_S1024x4096_S1024x4096_S1024x1024_1_1_0_0_n_n none x0 x1 (constant S1024x1024 .f32 0x00000000#32) j
      = ∑ k : Fin 4096, x0 (lrow j k) * x1 (rrow j k) := by
  simp only [matmul]
  rw [Ideal.matmul_constant_zero_apply, ← Equiv.sum_comp (ValueIdx.contrEquiv1 dot_S1024x4096_S1024x4096_S1024x1024_1_1_0_0_n_n 4096 rfl rfl).symm]
  refine Finset.sum_congr rfl fun k _ => ?_
  have hk := ValueIdx.contrEquiv1_symm_val dot_S1024x4096_S1024x4096_S1024x1024_1_1_0_0_n_n 4096 rfl rfl k
  have el : dot_S1024x4096_S1024x4096_S1024x1024_1_1_0_0_n_n.lhsIdx j ((ValueIdx.contrEquiv1 dot_S1024x4096_S1024x4096_S1024x1024_1_1_0_0_n_n 4096 rfl rfl).symm k) = lrow j k := funext fun a => Fin.ext (by
    match a with
    | ⟨0, _⟩ => exact lhs_axis0 _ _
    | ⟨1, _⟩ => exact (lhs_axis1 _ _).trans hk)
  have er : dot_S1024x4096_S1024x4096_S1024x1024_1_1_0_0_n_n.rhsIdx j ((ValueIdx.contrEquiv1 dot_S1024x4096_S1024x4096_S1024x1024_1_1_0_0_n_n 4096 rfl rfl).symm k) = rrow j k := funext fun a => Fin.ext (by
    match a with
    | ⟨0, _⟩ => exact rhs_axis0 _ _
    | ⟨1, _⟩ => exact (rhs_axis1 _ _).trans hk)
  rw [el, er]

/-- The bias row spread over the tile's rows, at a tile entry: the row's entry in that column. -/
theorem bias_entry (x2 : FVec Ideal S1x1024 .f32) (j : S1024x1024.Idx) :
    broadcastTo S1024x1024 (shapeCast S1x1024 x2 shapeCasts_S1x1024_S1x1024) broadcasts_S1x1024_S1024x1024 j = x2 (bcol j) := by
  rw [shapeCast_self]
  exact broadcastTo_apply x2 broadcasts_S1x1024_S1024x1024 j (bcol j) (fun a => match a with
    | ⟨0, _⟩ => by show 0 = if (1 : Nat) = 1 then 0 else (j 0).val; rw [if_pos rfl]
    | ⟨1, _⟩ => by show (j 1).val = if (1024 : Nat) = 1 then 0 else (j 1).val; rw [if_neg (by decide)])

/-- The body's stored value at a tile entry. -/
theorem stored_entry (x0 x1 : Vec Ideal S1024x4096 .bf16) (x2 : Vec Ideal S1x1024 .f32) (j : S1024x1024.Idx) :
    k2_pay1 (F := Ideal) x0 x1 x2 j = (∑ k : Fin 4096, x0 (lrow j k) * x1 (rrow j k)) + x2 (bcol j) := by
  unfold k2_pay1
  show FloatOps.addf (matmul (F := Ideal) dot_S1024x4096_S1024x4096_S1024x1024_1_1_0_0_n_n none (shapeCast S1024x4096 x0 shapeCasts_S1024x4096_S1024x4096) (shapeCast S1024x4096 x1 shapeCasts_S1024x4096_S1024x4096) (constant S1024x1024 .f32 0x00000000#32) j)
    (broadcastTo S1024x1024 (shapeCast S1x1024 x2 shapeCasts_S1x1024_S1x1024) broadcasts_S1x1024_S1024x1024 j) = _
  rw [shapeCast_self, shapeCast_self, product_entry, bias_entry]
  rfl

/-! ## From the tiles to the array -/

/-- Row `i 0` of the activations, column `k`. -/
abbrev xrow (i : S8192x4096.Idx) (k : Fin 4096) : S8192x4096.Idx := fun a => match a with
  | ⟨0, _⟩ => ⟨(i 0).val, (i 0).isLt⟩
  | ⟨1, _⟩ => ⟨k.val, k.isLt⟩
/-- Row `i 1` of the binarized weight, column `k`. -/
abbrev wrow (i : S8192x4096.Idx) (k : Fin 4096) : S4096x4096.Idx := fun a => match a with
  | ⟨0, _⟩ => ⟨(i 1).val, (i 1).isLt⟩
  | ⟨1, _⟩ => ⟨k.val, k.isLt⟩
/-- Column `i 1` of the bias row. -/
abbrev bentry (i : S8192x4096.Idx) : S1x4096.Idx := fun a => match a with
  | ⟨0, _⟩ => ⟨0, Nat.one_pos⟩
  | ⟨1, _⟩ => ⟨(i 1).val, (i 1).isLt⟩

/-- The three arrays the region reads, as it finds them, at their literal types: the re-formatted activations, -/
abbrev actArr (c : Dev nD) : Vec Ideal S8192x4096 .bf16 := V c main_v1
/-- the binarized weight, -/
abbrev wgtArr (c : Dev nD) : Vec Ideal S4096x4096 .bf16 := V c main_v0
/-- and the bias row. -/
abbrev biasArr (c : Dev nD) : Vec Ideal S1x4096 .f32 := V c main_v2

/-- What the region leaves in the result array, as one function of those three arrays. -/
abbrev productOf (c : Dev nD) : S8192x4096.Idx → Elt Ideal .f32 := fun i =>
  (∑ k : Fin 4096, actArr V c (xrow i k) * wgtArr V c (wrow i k)) + biasArr V c (bentry i)

/-- The four index maps over the 32 points: the activations' block row is the tile's block row, the weight's block
    row and the bias's block column are the tile's block column, and the other block indices are zero. -/
theorem block_indices : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 7 ∧ win2_3.index t (1 : Fin 2) ≤ 3 :=
  (by decide +kernel : ∀ t : Fin grid2.N, _)

/-- Every tile of the 8 × 4 tiling is some point's. -/
theorem block_onto : ∀ (q0 : Fin 8) (q1 : Fin 4), ∃ t : Fin cfg2.N, win2_3.index t = ![q0.val, q1.val] :=
  (by decide +kernel : ∀ (q0 : Fin 8) (q1 : Fin 4), ∃ t : Fin grid2.N, win2_3.index t = ![q0.val, q1.val])

/-- What point `t` writes back is tile `t` of `productOf`. -/
theorem flushed_product (c : Dev nD) (t : Fin cfg2.N) :
    (dat2 V c).flushed 3 t = ((cfg2.win 3).blk t).view.read (Elt Ideal) (productOf V c) := by
  show (cfg2.win 3).cut (grid2.coords t) ((dat2 V c).after 3 t) = _
  rw [after2_3]
  unfold out2_3
  rw [View.canon_unit_zero offsets_zero]
  simp only [View.ld_unit_zero (S := S1024x4096) offsets_zero, View.ld_unit_zero (S := S1x1024) offsets_zero]
  obtain ⟨e0, e1, e2, e3, e4, e5, -, -⟩ := block_indices t
  funext j
  refine (stored_entry (iblk2 V c 0 t) (iblk2 V c 1 t) (iblk2 V c 2 t) j).trans ?_
  show (∑ k : Fin 4096, actArr V c (((cfg2.win 0).blk t).view.emb (lrow j k)) * wgtArr V c (((cfg2.win 1).blk t).view.emb (rrow j k)))
        + biasArr V c (((cfg2.win 2).blk t).view.emb (bcol j))
      = (∑ k : Fin 4096, actArr V c (xrow (((cfg2.win 3).blk t).view.emb j) k) * wgtArr V c (wrow (((cfg2.win 3).blk t).view.emb j) k))
        + biasArr V c (bentry (((cfg2.win 3).blk t).view.emb j))
  have h0 : ∀ k : Fin 4096, ((cfg2.win 0).blk t).view.emb (lrow j k) = xrow (((cfg2.win 3).blk t).view.emb j) k := fun k => by
    funext a; apply Fin.ext
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 4096 + 1 * k.val = k.val; omega
  have h1 : ∀ k : Fin 4096, ((cfg2.win 1).blk t).view.emb (rrow j k) = wrow (((cfg2.win 3).blk t).view.emb j) k := fun k => by
    funext a; apply Fin.ext
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 4096 + 1 * k.val = k.val; omega
  have h2 : ((cfg2.win 2).blk t).view.emb (bcol j) = bentry (((cfg2.win 3).blk t).view.emb j) := by
    funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega
  simp only [h0, h1, h2]

/-- An index of the result array lies in point `t`'s tile iff each coordinate lies in the tile's range. -/
theorem mem_block (t : Fin cfg2.N) (i : S8192x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v3).slice (win2_3.rect t)).set ↔ _
  rw [View.set_slice_whole, Rect.mem_set_unit]
  exact Iff.rfl

/-- The 32 tiles cover the array: entry `(r, s)` is in the tile at block row `r / 1024`, block column `s / 1024`. -/
theorem blocks_cover (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_block]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- After the region the result array is `productOf` of the arrays the region found. -/
theorem product_array (c : Dev nD) : (dat2 V c).arrAt 3 cfg2.N = productOf V c :=
  (dat2 V c).arrAt_eq_of_cover 3 (productOf V c) (fun t _ => flushed_product V c t) (blocks_cover)

end Cert.KernelIdeal.RegionMatmul

end
-- ==== Proof.KernelValue.lean ====
/-
  The idealized kernel's result array, as the binarized linear layer `Cert.BinLinear.G` of the launch contents.

  The last boundary's contents of the result buffer are what the product region leaves there (`product_array`), a
  function of three arrays as that region finds them: the re-formatted activations, which the cast region left equal
  to the argument `x` (`cast_array`; the binarize region before it and the reshape after it do not write that
  buffer); the binarized weight, which the binarize region left at `sgn` of the argument `w`, entry by entry
  (`binarized_array`; neither the cast region nor the reshape writes it); and the bias row, which the host reshape
  of the argument `b` to one row wrote, so that its entry `(0, o)` is `b[o]`. Substituting the three gives
      (∑ k, x[n, k] · sgn (w[o, k])) + b[o]
  at every `(n, o)`.
-/
import proofs.«117121_j44057774522911_1_alg».proof.Proof.Gen.KernelIdeal.Frame
import Idealize.ShloMosaic.Lib.Pipeline.Value
import Idealize.ShloMosaic.Lib.ValueIdx
import Idealize.ShloMosaic.PureOps.Ideal.Laws
import proofs.«117121_j44057774522911_1_alg».proof.Proof.Spec
import proofs.«117121_j44057774522911_1_alg».proof.Proof.RegionBinarize
import proofs.«117121_j44057774522911_1_alg».proof.Proof.RegionCast
import proofs.«117121_j44057774522911_1_alg».proof.Proof.RegionMatmul
import Idealize.ShloMosaic.Lib.StableHlo.Run
set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.BinLinear
open scoped BigOperators

variable (m : (ℓ : Loc nD τ sig) → Buf (Elt Ideal) ℓ) (ρ : Dev nD → PrngReg)

/-- The reshape writes the bias row's buffer only: every other buffer keeps its contents across it. -/
theorem reshape_keeps (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The product region finds the re-formatted activations equal to the argument `x`. -/
theorem entered_activations (c : Dev nD) :
    V3 m ρ c main_v1 = fun i => m ((c : Thread nD τ).loc main_arg0) i :=
  calc W3 m ρ c (Proc.devRef .tc main_v1)
    _ = W2 m ρ c (Proc.devRef .tc main_v1) := reshape_keeps m ρ c main_v1 (by decide)
    _ = (dat1 (V1 m ρ) c).arrAt 1 cfg1.N := W2_arr m ρ c 1
    _ = RegionCast.castOf (V1 m ρ) c := RegionCast.cast_array (V1 m ρ) c
    _ = fun i => m ((c : Thread nD τ).loc main_arg0) i := by
        have e : W1 m ρ c (Proc.devRef .tc main_arg0) = m ((c : Thread nD τ).loc main_arg0) :=
          (W1_of_ne m ρ c main_arg0 (by decide)).trans rfl
        funext i
        show W1 m ρ c (Proc.devRef .tc main_arg0) i = _
        rw [e]

/-- The product region finds the binarized weight at `sgn` of the argument `w`, entry by entry. -/
theorem entered_weight (c : Dev nD) :
    V3 m ρ c main_v0 = fun i => sgn (m ((c : Thread nD τ).loc main_arg1) i) :=
  calc W3 m ρ c (Proc.devRef .tc main_v0)
    _ = W2 m ρ c (Proc.devRef .tc main_v0) := reshape_keeps m ρ c main_v0 (by decide)
    _ = W1 m ρ c (Proc.devRef .tc main_v0) := W2_of_ne m ρ c main_v0 (by decide)
    _ = (dat0 (V0 m ρ) c).arrAt 1 cfg0.N := W1_arr m ρ c 1
    _ = RegionBinarize.binarizedOf (V0 m ρ) c := RegionBinarize.binarized_array (V0 m ρ) c
    _ = fun i => sgn (m ((c : Thread nD τ).loc main_arg1) i) := rfl

/-- The product region finds the bias row at the argument `b` laid out as one row: entry `(0, o)` is `b[o]` (both
    sit at position `o` of the row-major order). -/
theorem entered_bias (c : Dev nD) (o : Fin 4096) :
    V3 m ρ c main_v2 (ix2 (0 : Fin 1) o) = m ((c : Thread nD τ).loc main_arg2) (ix1 o) := by
  show StableHlo.after hostOps2 (W2 m ρ c) (Proc.devRef .tc main_v2) (ix2 (0 : Fin 1) o) = _
  after_results
  show shapeCast S1x4096 (W2 m ρ c (Proc.devRef .tc main_arg2)) shapeCasts_S4096_S1x4096 (ix2 (0 : Fin 1) o) = _
  refine (shapeCast_apply (W2 m ρ c (Proc.devRef .tc main_arg2)) shapeCasts_S4096_S1x4096 (ix2 (0 : Fin 1) o) (ix1 o) ?_).trans ?_
  · show (S4096.rowMajor (ix1 o)).val = (S1x4096.rowMajor (ix2 (0 : Fin 1) o)).val
    rw [Shape.rowMajor_val_one, Shape.rowMajor_val_two]
    show o.val = 0 * 4096 + o.val
    omega
  · exact congrFun ((W2_of_ne m ρ c main_arg2 (by decide)).trans ((W1_of_ne m ρ c main_arg2 (by decide)).trans rfl)) (ix1 o)

/-- The result buffer's contents at the last boundary are the binarized linear layer of the three arguments. -/
theorem result_is_G (c : Dev nD) :
    W4 m ρ c (Proc.devRef .tc main_v3)
      = G (m ((c : Thread nD τ).loc main_arg0)) (m ((c : Thread nD τ).loc main_arg1)) (m ((c : Thread nD τ).loc main_arg2)) :=
  calc W4 m ρ c (Proc.devRef .tc main_v3)
    _ = (dat2 (V3 m ρ) c).arrAt 3 cfg2.N := W4_arr m ρ c 3
    _ = RegionMatmul.productOf (V3 m ρ) c := RegionMatmul.product_array (V3 m ρ) c
    _ = G (m ((c : Thread nD τ).loc main_arg0)) (m ((c : Thread nD τ).loc main_arg1)) (m ((c : Thread nD τ).loc main_arg2)) := by
        funext i
        have ha : RegionMatmul.actArr (V3 m ρ) c = fun i => m ((c : Thread nD τ).loc main_arg0) i := entered_activations m ρ c
        have hw : RegionMatmul.wgtArr (V3 m ρ) c = fun i => sgn (m ((c : Thread nD τ).loc main_arg1) i) := entered_weight m ρ c
        have hbi : RegionMatmul.bentry i = ix2 (0 : Fin 1) (⟨(i 1).val, (i 1).isLt⟩ : Fin 4096) :=
          funext fun a => Fin.ext (by match a with | ⟨0, _⟩ => rfl | ⟨1, _⟩ => rfl)
        have hb : RegionMatmul.biasArr (V3 m ρ) c (RegionMatmul.bentry i)
            = m ((c : Thread nD τ).loc main_arg2) (ix1 (⟨(i 1).val, (i 1).isLt⟩ : Fin 4096)) := by
          rw [hbi]; exact entered_bias m ρ c _
        have hx : ∀ k : Fin 4096, RegionMatmul.xrow i k = ix2 (⟨(i 0).val, (i 0).isLt⟩ : Fin 8192) k := fun k =>
          funext fun a => Fin.ext (by match a with | ⟨0, _⟩ => rfl | ⟨1, _⟩ => rfl)
        have hr : ∀ k : Fin 4096, RegionMatmul.wrow i k = ix2 (⟨(i 1).val, (i 1).isLt⟩ : Fin 4096) k := fun k =>
          funext fun a => Fin.ext (by match a with | ⟨0, _⟩ => rfl | ⟨1, _⟩ => rfl)
        show (∑ k : Fin 4096, RegionMatmul.actArr (V3 m ρ) c (RegionMatmul.xrow i k) * RegionMatmul.wgtArr (V3 m ρ) c (RegionMatmul.wrow i k))
            + RegionMatmul.biasArr (V3 m ρ) c (RegionMatmul.bentry i) = _
        rw [ha, hw, hb]
        simp only [hx, hr]
        rfl

end Cert.KernelIdeal.KernelValue

end
-- ==== Proof.RefValue.lean ====
/-
  The reference, read at an index, is the binarized linear layer `Cert.BinLinear.G`.

  The reference clamps the weight to [-1, 1] (a maximum with `-1.0`, then a minimum with `1.0`), selects `1.0` where
  the clamped entry is `≥ 0.0` and `-1.0` elsewhere, contracts the activations with that matrix over the shared
  4096 columns, and adds the bias spread over the rows. Entry by entry the select is `sgn` of the clamped weight,
  which is `sgn` of the weight (`sgn_clamp`); the contraction at `(n, o)` is `∑ k, x[n, k] · sgn (w[o, k])`; the
  two broadcasts of the bias read `b[o]`.
-/
import proofs.«117121_j44057774522911_1_alg».proof.Proof.Gen.ReferenceIdeal.Read
import proofs.«117121_j44057774522911_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.BinLinear
open scoped BigOperators

/-- The reference's binarized weight at an entry: the sign of the weight's entry. -/
theorem binarized_entry (x1 : (⟨S4096x4096, .f32⟩ : BufTy).Contents (Elt Ideal)) (j : S4096x4096.Idx) :
    val_main_v4 (F := Ideal) x1 j = sgn (x1 j) := by
  rw [val_main_v4_apply, val_main_v3_apply, val_main_v2_apply, val_main_v0_apply, val_main_call0_v4_apply,
    val_main_call0_v3_apply, val_main_cst_0_apply, val_main_call0_v2_apply, val_main_call0_v1_apply,
    val_main_call0_v0_apply, val_main_cst_apply, val_main_v1_apply, val_main_cst_1_apply, val_main_call1_v0_apply,
    val_main_cst_2_apply, val_main_call1_v1_apply, val_main_cst_3_apply]
  simp only [Ideal.ofBits_def, Ideal.cmpf_def, Ideal.minimumf_def, Ideal.maximumf_def]
  rw [select_ge_zero, ofBits_one, ofBits_neg_one, sgn_clamp]

/-- The contraction's left operand index: row `i 0`, column `k`. -/
theorem left_index (i : S8192x4096.Idx) (k : Fin 4096) :
    lidx_main_v5 i k = ix2 (⟨(i 0).val, (i 0).isLt⟩ : Fin 8192) k :=
  funext fun a => Fin.ext (by match a with | ⟨0, _⟩ => rfl | ⟨1, _⟩ => rfl)

/-- The contraction's right operand index: row `i 1`, column `k`. -/
theorem right_index (i : S8192x4096.Idx) (k : Fin 4096) :
    ridx_main_v5 i k = ix2 (⟨(i 1).val, (i 1).isLt⟩ : Fin 4096) k :=
  funext fun a => Fin.ext (by match a with | ⟨0, _⟩ => rfl | ⟨1, _⟩ => rfl)

/-- The bias, spread to a row and then over the rows, is read at column `i 1`. -/
theorem bias_index (i : S8192x4096.Idx) :
    idx_main_v6 (idx_main_v7 i) = ix1 (⟨(i 1).val, (i 1).isLt⟩ : Fin 4096) :=
  funext fun a => Fin.ext (by match a with | ⟨0, _⟩ => rfl)

/-- The reference's result, as its last stage, is `G` of the three arguments. -/
theorem reference_is_G (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v8 (F := Ideal) x0 x1 x2 = G x0 x1 x2 := by
  funext i
  rw [val_main_v8_apply, val_main_v5_apply, val_main_v7_apply, val_main_v6_apply]
  simp only [binarized_entry, left_index, right_index, bias_index]
  rfl

end Cert.ReferenceIdeal.RefValue

end
-- ==== Proof.lean ====
/-
  A linear layer with a binarized weight: the kernel's program against its plain reference, on the extended reals.

  Both compute   out[n, o] = (∑ k, x[n, k] · sgn (w[o, k])) + b[o]   with `sgn v = 1` for `0 ≤ v` and `-1` below
  zero (Proof/Spec.lean, `Cert.BinLinear.G`).

  The kernel's program does it in three regions and one host reshape: it binarizes the weight block of rows by
  block of rows (Proof/RegionBinarize.lean), changes the activations' float format, which is the identity here
  (Proof/RegionCast.lean), lays the bias out as one row, and forms the product tile by tile, each tile contracting
  the whole inner dimension into a zero accumulator and adding the bias row (Proof/RegionMatmul.lean). Reading each
  region's result array as one function of the arrays the region finds, and following the three buffers from
  region to region, gives `G` of the arguments in the result buffer (Proof/KernelValue.lean, over the run with the
  result named, Proof/RunValue.lean).

  The reference clamps the weight to [-1, 1] before taking the sign. Clamping never moves a value across zero, so
  the sign is unchanged, infinities included, and the reference's contraction has the same terms
  (Proof/RefValue.lean). The two sums are over the same index set with equal summands, so no reordering law and no
  finiteness of the inputs is needed: the precondition is not opened.

  The frames of the two kernel programs are their generated frame certificates; the reference's frame is its
  generated run with the result dropped; the ideal pass rewrote nothing, so there is nothing to preserve.
-/
import proofs.«117121_j44057774522911_1_alg».proof.Defs
import proofs.«117121_j44057774522911_1_alg».proof.Proof.Gen.Kernel
import proofs.«117121_j44057774522911_1_alg».proof.Proof.Gen.Kernel.Skeleton
import proofs.«117121_j44057774522911_1_alg».proof.Proof.Gen.Kernel.Launch
import proofs.«117121_j44057774522911_1_alg».proof.Proof.Gen.Kernel.Points
import proofs.«117121_j44057774522911_1_alg».proof.Proof.Gen.Kernel.Frame
import proofs.«117121_j44057774522911_1_alg».proof.Proof.Gen.KernelIdeal
import proofs.«117121_j44057774522911_1_alg».proof.Proof.Gen.KernelIdeal.Skeleton
import proofs.«117121_j44057774522911_1_alg».proof.Proof.Gen.KernelIdeal.Launch
import proofs.«117121_j44057774522911_1_alg».proof.Proof.Gen.KernelIdeal.Points
import proofs.«117121_j44057774522911_1_alg».proof.Proof.Gen.KernelIdeal.Frame
import proofs.«117121_j44057774522911_1_alg».proof.Proof.Gen.ReferenceIdeal
import proofs.«117121_j44057774522911_1_alg».proof.Proof.Gen.ReferenceIdeal.Run
import proofs.«117121_j44057774522911_1_alg».proof.Proof.Gen.ReferenceIdeal.Read
import proofs.«117121_j44057774522911_1_alg».proof.Proof.Gen.Pre_finite_inputs
import proofs.«117121_j44057774522911_1_alg».proof.Proof.Spec
import proofs.«117121_j44057774522911_1_alg».proof.Proof.RunValue
import proofs.«117121_j44057774522911_1_alg».proof.Proof.KernelValue
import proofs.«117121_j44057774522911_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the result array at `G` of the (agreeing) arguments: the kernel's program by
    following its three regions, the reference by reading its last stage at an index. -/
theorem algebraic : Cert.algebraic_KernelIdeal_ReferenceIdeal := by
  intro m ρ m' ρ' _ hagree
  refine ⟨fun c => Cert.BinLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KernelValue.result_is_G m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.reference_is_G,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
